-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192x8192 : Shape := ⟨2, ![8192, 8192]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  reduces_S512x1024_S512 : S512x1024.Reduces [1] S512
  shapeCasts_S512_S512x1 : S512.ShapeCasts S512x1
  reduces_S1024x1024_S1024 : S1024x1024.Reduces [1] S1024
  shapeCasts_S1024_S1024x1 : S1024.ShapeCasts S1024x1
  bitsLt_bf16_f32 : FTy.bits .bf16 < FTy.bits .f32
  transposes_S1024x1024_p1_0_S1024x1024 : S1024x1024.Transposes [1, 0] S1024x1024
  transposes_S1024x1_p1_0_S1x1024 : S1024x1.Transposes [1, 0] S1x1024
  broadcasts_S512x1_S512x1024 : S512x1.Broadcasts S512x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x8192.size a
  hwx0_2 : ∀ i : grid0.Coords, EltTy.bits .f32 = 32 ∨ (Rect.block (s := S8192x8192) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.SquaredDistance.lean ====
/-
  The function both programs compute, stated once over extended reals.

  For an [r, d] array x and an [s, d] array y, entry (p, q) of the result is

      −log(1 + max(|x_p|² + |y_q|² − 2·⟨x_p, y_q⟩, 0)),

  where |x_p|² = ∑ₖ x(p,k)·x(p,k) is the squared length of row p, ⟨x_p, y_q⟩ = ∑ₖ x(p,k)·y(q,k) the inner
  product of row p of x with row q of y, and the factor 2 is the single-precision word for 2.0, kept as the
  word (both programs carry the same word, so it is never evaluated). The grouping is the programs' own:
  the two squared lengths are added first and twice the inner product is subtracted from their sum; nothing
  is distributed or cancelled, so the identity between the two programs needs no finiteness of the inputs.
-/
import Idealize.ShloMosaic.PureOps.Ideal.Laws
import Idealize.ShloMosaic.Lib.ValueIdx

noncomputable section

namespace Cert.SquaredDistance

open Idealize.ShloMosaic Idealize.ShloMosaic.ValueIdx

/-- The squared length of row `p` of an `[r, d]` array. -/
def rowSq {r d : ℕ} (x : (⟨2, ![r, d]⟩ : Shape).Idx → EReal) (p : Fin r) : EReal :=
  ∑ k : Fin d, x (ix2 p k) * x (ix2 p k)

/-- The inner product of row `p` of `x` with row `q` of `y`. -/
def rowDot {r s d : ℕ} (x : (⟨2, ![r, d]⟩ : Shape).Idx → EReal) (y : (⟨2, ![s, d]⟩ : Shape).Idx → EReal)
    (p : Fin r) (q : Fin s) : EReal :=
  ∑ k : Fin d, x (ix2 p k) * y (ix2 q k)

/-- One entry from its three sums: `−log(1 + max((sx + sy) − 2·cr, 0))`. -/
def entry (sx sy cr : EReal) : EReal :=
  -(Ideal.log1p (max ((sx + sy) - Ideal.ofBits .f32 0x40000000#32 * cr) 0))

/-- The whole result: entry `(p, q)` from rows `p` of `x` and `q` of `y`. -/
def negLogDist {r s d : ℕ} (x : (⟨2, ![r, d]⟩ : Shape).Idx → EReal) (y : (⟨2, ![s, d]⟩ : Shape).Idx → EReal) :
    (⟨2, ![r, s]⟩ : Shape).Idx → EReal :=
  fun i => entry (rowSq x (i 0)) (rowSq y (i 1)) (rowDot x y (i 0) (i 1))

/-- The result at an index given by its coordinates. -/
theorem negLogDist_ix2 {r s d : ℕ} (x : (⟨2, ![r, d]⟩ : Shape).Idx → EReal) (y : (⟨2, ![s, d]⟩ : Shape).Idx → EReal)
    (p : Fin r) (q : Fin s) : negLogDist x y (ix2 p q) = entry (rowSq x p) (rowSq y q) (rowDot x y p q) := rfl

/-- A pointwise tree of the shape both programs print — zero minus the logarithm of one plus the larger of
    `(a + b) − 2·c` and zero — read at an index where its three operands are known. On the extended reals
    `0 − z = −z` for every `z`, the infinities included. -/
theorem tree_apply {S : Shape} (a b c : FVec Ideal S .f32) (i : S.Idx) (sx sy cr : EReal)
    (ha : a i = sx) (hb : b i = sy) (hc : c i = cr) :
    subf (broadcast S (Scalar.ofBits (F := Ideal) .f32 0x00000000#32))
        (log1p (maximumf (subf (addf a b) (mulf (broadcast S (Scalar.ofBits (F := Ideal) .f32 0x40000000#32)) c))
          (broadcast S (Scalar.ofBits (F := Ideal) .f32 0x00000000#32)))) i
      = entry sx sy cr := by
  show Ideal.ofBits .f32 0x00000000#32
      - Ideal.log1p (max ((a i + b i) - Ideal.ofBits .f32 0x40000000#32 * c i) (Ideal.ofBits .f32 0x00000000#32)) = _
  rw [ha, hb, hc, Ideal.ofBits_zero_f32, zero_sub]
  rfl

end Cert.SquaredDistance

end
-- ==== Proof.LibColumnForms.lean ====
/-
  General lemmas for kernels that keep a reduced axis as a unit axis (`keepdims`) and for one-axis minima, read at an index.

  * `shapeCast_a_a1_apply`: an `[a]` array cast to a column `[a, 1]`, read at `(i, u)`, is the operand at `i`.
  * `broadcastTo_a1_ab_apply`: a column `[a, 1]` broadcast to `[a, b]`, read at `(p, c)`, is the column at `p`.
  * `shapeCast_a1b_ab_apply`: an `[a, 1, b]` array cast to `[a, b]`, read at `(i, j)`, is the operand at `(i, 0, j)`.
  * `lift_axis1`, `lift_axis0`: the source index of a rank-2 reduction along axis 1 (along axis 0) over a lane, with the
    reduced coordinate inserted, by coordinates.
  * `multiReduction_minimumf_single`: a float `vector.multi_reduction <minimumf>` over one axis at the ideal values is
    the fold of `min` from the accumulator's value over that axis's coordinates (the library states this for
    `<maximumf>`).
  Generic in the extents; nothing here mentions a program.
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ColumnForms

open Idealize.ShloMosaic Idealize.ShloMosaic.ValueIdx

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array cast to `[a, b]` reads, at `(i, j)`, the operand at `(i, 0, j)`: the same row-major position. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Layout

section Reduce

/-- The source index over lane `r` of a reduction along axis 1 with coordinate `k` inserted is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- The source index over lane `c` of a reduction along axis 0 with coordinate `k` inserted is `(k, c)`. -/
theorem lift_axis0 {a b : ℕ} (h : (⟨2, ![a, b]⟩ : Shape).Reduces [0] ⟨1, ![b]⟩) (c : Fin b) (k : Fin a) :
    h.lift (ix1 c) k = ix2 k c := by
  funext d
  apply Fin.ext
  match d with
  | ⟨0, _⟩ => rfl
  | ⟨1, _⟩ => rfl

/-- A float `vector.multi_reduction <minimumf>` over one axis, read at the ideal values: the fold of `min` from the
    accumulator's value over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

end Reduce

end Cert.ColumnForms

end
-- ==== Proof.LibRowSumForms.lean ====
/-
  General lemmas for kernels that sum each row of a matrix and then spread the sums over a larger matrix, read at an
  index at the exact instance.

  * `rowSum_column_apply`: the sums of the rows of an `[a, d]` array (an add-reduction along axis 1), kept as a column
    `[a, 1]` and broadcast to `[a, b]`, read at `(p, q)`: the sum over `k` of the array at `(p, k)`.
  * `rowSum_row_apply`: the sums of the rows of a `[b, d]` array, kept as a column `[b, 1]`, transposed into a row
    `[1, b]` and broadcast to `[a, b]`, read at `(p, q)`: the sum over `k` of the array at `(q, k)`.
  Generic in the extents and the float format; nothing here mentions a program. The column forms they pass through
  are the lemmas of `Cert.ColumnForms`, which this file imports: the two files go together.
-/
import proofs.«146461_j57543971832354_1_alg».proof.Proof.LibColumnForms
import Idealize.ShloMosaic.Lib.ValueLayout

noncomputable section

namespace Cert.RowSumForms

open Idealize.ShloMosaic Idealize.ShloMosaic.ValueIdx

variable {φ : FTy}

/-- The row sums of an `[a, d]` array as a column broadcast along the columns: at `(p, q)` the sum of row `p`. -/
theorem rowSum_column_apply {a b d : ℕ} (x : FVec Ideal ⟨2, ![a, d]⟩ φ) (acc : BitVec φ.bits)
    (hr : (⟨2, ![a, d]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (multiReduction .add [1] ⟨1, ![a]⟩ x acc hr hφ hacc) hc) hb (ix2 p q)
      = ∑ k : Fin d, x (ix2 p k) := by
  rw [Cert.ColumnForms.broadcastTo_a1_ab_apply, Cert.ColumnForms.shapeCast_a_a1_apply]
  refine (Ideal.multiReduction_add_single x acc hr hφ hacc (ix1 p)).trans ?_
  exact Finset.sum_congr rfl fun k _ => congrArg x (Cert.ColumnForms.lift_axis1 hr p k)

/-- The row sums of a `[b, d]` array as a row broadcast along the rows: at `(p, q)` the sum of row `q`. -/
theorem rowSum_row_apply {a b d : ℕ} (x : FVec Ideal ⟨2, ![b, d]⟩ φ) (acc : BitVec φ.bits)
    (hr : (⟨2, ![b, d]⟩ : Shape).Reduces [1] ⟨1, ![b]⟩) (hφ : FKind.Formats φ) (hacc : acc = FKind.add.neutral φ hφ)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (p : Fin a) (q : Fin b) :
    broadcastTo ⟨2, ![a, b]⟩ (transpose ⟨2, ![1, b]⟩ [1, 0]
        (shapeCast ⟨2, ![b, 1]⟩ (multiReduction .add [1] ⟨1, ![b]⟩ x acc hr hφ hacc) hc) ht) hb (ix2 p q)
      = ∑ k : Fin d, x (ix2 q k) := by
  rw [broadcastTo_1b_ab_apply, transpose_ix2_apply, Cert.ColumnForms.shapeCast_a_a1_apply]
  refine (Ideal.multiReduction_add_single x acc hr hφ hacc (ix1 q)).trans ?_
  exact Finset.sum_congr rfl fun k _ => congrArg x (Cert.ColumnForms.lift_axis1 hr q k)

end Cert.RowSumForms

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.KernelEntry.lean ====
/-
  What the kernel's body stores, read at one entry of the output block.

  The body holds a [512, 1024] block of x1 and a [1024, 1024] block of x2. It forms the squared lengths of the
  rows of each block (a row sum of the squares), spreads the first down the columns and the second — turned from a
  column into a row — across the rows, multiplies the first block by the transpose of the second (the narrowing of
  both to sixteen bits before the product is the identity on exact values), and stores
  0 − log(1 + max((|x1_p|² + |x2_q|²) − 2·⟨x1_p, x2_q⟩, 0)) at (p, q). So entry (p, q) of the stored block is the
  function `entry` of the three sums taken over row p of the first block and row q of the second.
-/
import proofs.«146461_j57543971832354_1_alg».proof.Proof.Gen.KernelIdeal.Skeleton
import proofs.«146461_j57543971832354_1_alg».proof.Proof.SquaredDistance
import proofs.«146461_j57543971832354_1_alg».proof.Proof.LibRowSumForms
import proofs.«146461_j57543971832354_1_alg».proof.Proof.LibMatmulPlain

noncomputable section

namespace Cert.KernelIdeal.Entry

open Cert.KernelIdeal Cert.KernelIdeal.Gen Idealize.ShloMosaic Idealize.ShloMosaic.ValueIdx Cert.SquaredDistance

/-- The body's product is the plain one: rows of the left operand against columns of the right. -/
theorem dot_plain : dot_S512x1024_S1024x1024_S512x1024_1_0_0_1_n_n = DotDims.plain 512 1024 1024 := rfl

/-- The product of the first block by the transpose of the second, at `(p, q)`: the inner product of row `p` of the
    first with row `q` of the second. -/
theorem product_apply (v0 : FVec Ideal S512x1024 .f32) (v1 : FVec Ideal S1024x1024 .f32) (p : Fin 512) (q : Fin 1024) :
    matmul dot_S512x1024_S1024x1024_S512x1024_1_0_0_1_n_n none (truncf .bf16 v0 bitsLt_bf16_f32)
        (transpose S1024x1024 [1, 0] (truncf .bf16 v1 bitsLt_bf16_f32) transposes_S1024x1024_p1_0_S1024x1024)
        (constant S512x1024 .f32 0x00000000#32) (ix2 p q)
      = rowDot v0 v1 p q := by
  rw [dot_plain]
  refine (MatmulPlain.matmul_zero_apply (M := 512) (K := 1024) (N := 1024) none _ _ p q).trans ?_
  refine Finset.sum_congr rfl fun k _ => ?_
  rw [transpose_ix2_apply]
  rfl

/-- Entry `(p, q)` of what the body stores, from its two loaded blocks. -/
theorem stored_apply (v0 : FVec Ideal S512x1024 .f32) (v1 : FVec Ideal S1024x1024 .f32) (p : Fin 512) (q : Fin 1024) :
    k0_pay1 (F := Ideal) v0 v1 (ix2 p q) = entry (rowSq v0 p) (rowSq v1 q) (rowDot v0 v1 p q) := by
  unfold k0_pay1
  exact tree_apply _ _ _ (ix2 p q) _ _ _
    (Cert.RowSumForms.rowSum_column_apply (mulf v0 v0) _ _ _ _ _ _ p q)
    (Cert.RowSumForms.rowSum_row_apply (mulf v1 v1) _ _ _ _ _ _ _ p q)
    (product_apply v0 v1 p q)

end Cert.KernelIdeal.Entry

end
-- ==== Proof.OutputArray.lean ====
/-
  From the blocks the grid points write to the whole output array.

  Point (i, j) of the 16 × 8 grid holds rows 512·i … 512·i + 511 of x1 and rows 1024·j … 1024·j + 1023 of x2, and
  writes the [512, 1024] block of the output at block index (i, j). Entry (p, q) of that block depends only on row
  p of the first block and row q of the second, which are rows 512·i + p of x1 and 1024·j + q of x2: the block is
  the restriction of `negLogDist x1 x2` to its rectangle. The 128 rectangles tile the [8192, 8192] array (row r
  lies in block row r / 512, column s in block column s / 1024), so the array ends as `negLogDist x1 x2`.
-/
import proofs.«146461_j57543971832354_1_alg».proof.Proof.Gen.KernelIdeal.Value
import proofs.«146461_j57543971832354_1_alg».proof.Proof.KernelEntry

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.SquaredDistance
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The three index maps over the grid: the first input moves with the output's block row and the second with its
    block column, neither moves along its second axis, and the output's block indices stay inside 16 × 8. -/
theorem index_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 15 ∧ win0_2.index t (1 : Fin 2) ≤ 7 :=
  (by decide +kernel : ∀ t : Fin grid0.N, _)

/-- Every block index of the 16 × 8 box is some point's. -/
theorem index_onto : ∀ (q0 : Fin 16) (q1 : Fin 8), ∃ t : Fin cfg0.N, win0_2.index t = ![q0.val, q1.val] :=
  (by decide +kernel : ∀ (q0 : Fin 16) (q1 : Fin 8), ∃ t : Fin grid0.N, win0_2.index t = ![q0.val, q1.val])

/-- Row `p` of the first input's block at point `t` is row `512·i + p` of x1, `i` the output's block row. -/
theorem firstBlock_apply (c : Dev nD) (t : Fin cfg0.N) (p : Fin 512) (k : Fin 1024) (r : Fin 8192)
    (hr : r.val = win0_2.index t (0 : Fin 2) * 512 + p.val) :
    iblk m c 0 t (ix2 p k) = V m c main_arg0 (ix2 r k) := by
  obtain ⟨e0, e1, -, -, -, -⟩ := index_facts t
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- Row `q` of the second input's block at point `t` is row `1024·j + q` of x2, `j` the output's block column. -/
theorem secondBlock_apply (c : Dev nD) (t : Fin cfg0.N) (q : Fin 1024) (k : Fin 1024) (r : Fin 8192)
    (hr : r.val = win0_2.index t (1 : Fin 2) * 1024 + q.val) :
    iblk m c 1 t (ix2 q k) = V m c main_arg1 (ix2 r k) := by
  obtain ⟨-, -, e0, e1, -, -⟩ := index_facts t
  show V m c main_arg1 (((cfg0.win 1).blk t).view.emb (ix2 q k)) = V m c main_arg1 (ix2 r k)
  refine congrArg _ (funext fun a => Fin.ext ?_)
  match a with
  | ⟨0, _⟩ => show win0_1.index t (0 : Fin 2) * 1024 + 1 * q.val = r.val; omega
  | ⟨1, _⟩ => show win0_1.index t (1 : Fin 2) * 1024 + 1 * k.val = k.val; omega

/-- What point `t` writes back is block `t` of `negLogDist` of the two argument arrays. -/
theorem flushed_eq (c : Dev nD) (t : Fin cfg0.N) :
    (dats m 0 c).flushed 2 t = ((cfg0.win 2).blk t).view.read (Elt Ideal)
      (negLogDist (r := 8192) (s := 8192) (d := 1024) (V m c main_arg0) (V m c main_arg1)) := by
  rw [flushed2]
  unfold out0_2
  rw [View.canon_unit_zero origin]
  simp only [View.ld_unit_zero (S := S512x1024) origin, View.ld_unit_zero (S := S1024x1024) origin]
  obtain ⟨-, -, -, -, b0, b1⟩ := index_facts t
  funext j
  obtain ⟨p, q, rfl⟩ : ∃ (p : Fin 512) (q : Fin 1024), j = ix2 p q := ⟨j 0, j 1, eq_ix2 j⟩
  have hp : win0_2.index t (0 : Fin 2) * 512 + p.val < 8192 := by have := p.isLt; omega
  have hq : win0_2.index t (1 : Fin 2) * 1024 + q.val < 8192 := by have := q.isLt; omega
  show k0_pay1 (F := Ideal) (iblk m c 0 t) (iblk m c 1 t) (ix2 p q)
    = negLogDist (r := 8192) (s := 8192) (d := 1024) (V m c main_arg0) (V m c main_arg1) (((cfg0.win 2).blk t).view.emb (ix2 p q))
  have he : ((cfg0.win 2).blk t).view.emb (ix2 p q)
      = ix2 (⟨win0_2.index t (0 : Fin 2) * 512 + p.val, hp⟩ : Fin 8192) (⟨win0_2.index t (1 : Fin 2) * 1024 + q.val, hq⟩ : Fin 8192) := by
    funext a; apply Fin.ext
    match a with
    | ⟨0, _⟩ => show win0_2.index t (0 : Fin 2) * 512 + 1 * p.val = win0_2.index t (0 : Fin 2) * 512 + p.val; omega
    | ⟨1, _⟩ => show win0_2.index t (1 : Fin 2) * 1024 + 1 * q.val = win0_2.index t (1 : Fin 2) * 1024 + q.val; omega
  rw [he, negLogDist_ix2]
  refine (Entry.stored_apply (iblk m c 0 t) (iblk m c 1 t) p q).trans ?_
  have h1 : rowSq (iblk m c 0 t) p = rowSq (r := 8192) (d := 1024) (V m c main_arg0) ⟨_, hp⟩ := by
    unfold rowSq
    exact Finset.sum_congr rfl fun k _ =>
      congrArg₂ (· * ·) (firstBlock_apply m c t p k ⟨_, hp⟩ rfl) (firstBlock_apply m c t p k ⟨_, hp⟩ rfl)
  have h2 : rowSq (iblk m c 1 t) q = rowSq (r := 8192) (d := 1024) (V m c main_arg1) ⟨_, hq⟩ := by
    unfold rowSq
    exact Finset.sum_congr rfl fun k _ =>
      congrArg₂ (· * ·) (secondBlock_apply m c t q k ⟨_, hq⟩ rfl) (secondBlock_apply m c t q k ⟨_, hq⟩ rfl)
  have h3 : rowDot (iblk m c 0 t) (iblk m c 1 t) p q
      = rowDot (r := 8192) (s := 8192) (d := 1024) (V m c main_arg0) (V m c main_arg1) ⟨_, hp⟩ ⟨_, hq⟩ := by
    unfold rowDot
    exact Finset.sum_congr rfl fun k _ =>
      congrArg₂ (· * ·) (firstBlock_apply m c t p k ⟨_, hp⟩ rfl) (secondBlock_apply m c t q k ⟨_, hq⟩ rfl)
  rw [h1, h2, h3]

/-- An index of the array is in point `t`'s block iff each coordinate is in the block's range on its axis. -/
theorem mem_block (t : Fin cfg0.N) (i : S8192x8192.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v0).slice (win0_2.rect t)).set ↔ _
  rw [View.set_slice_whole, Rect.mem_set_unit]
  exact Iff.rfl

/-- Every index of the array lies in some point's block: row `r` in block row `r / 512`, column `s` in block
    column `s / 1024`. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- The output array after the run is `negLogDist` of the two argument arrays. -/
theorem final (c : Dev nD) :
    (dats m 0 c).arrAt 2 cfg0.N = negLogDist (r := 8192) (s := 8192) (d := 1024) (V m c main_arg0) (V m c main_arg1) :=
  (dats m 0 c).arrAt_eq_of_cover 2 _ (fun t _ => flushed_eq m c t) covered

/-- The kernel's run: the result array ends at `negLogDist` of the arguments as launched, the arguments unchanged. -/
theorem run : θ_run defs (onTc (τ := τ) (main (F := Ideal))) ⟨m, fun _ => 0, ρ⟩ fun r => ∀ c : Dev nD,
      r.2.mem ((c : Thread nD τ).loc main_v0)
        = negLogDist (r := 8192) (s := 8192) (d := 1024) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.ReferenceEntry.lean ====
/-
  The reference's result is the function `negLogDist` of its two arguments.

  The reference sums the squares of each row of x1 and of x2 (each sum started from the zero word, which is the
  extended real 0, so the start drops), places the first as a column and the second as a row, spreads both to
  [8192, 8192], contracts the two arguments over their second axis, and takes −log(1 + max(·, 0)) of
  (column + row) − 2·product. Read at an index (p, q), every layout step lands on row p of x1 and row q of x2.
-/
import proofs.«146461_j57543971832354_1_alg».proof.Proof.Gen.ReferenceIdeal.Read
import proofs.«146461_j57543971832354_1_alg».proof.Proof.SquaredDistance

noncomputable section

namespace Cert.ReferenceIdeal.Entry

open Cert.ReferenceIdeal Cert.ReferenceIdeal.Gen Cert.ReferenceIdeal.Read Idealize.ShloMosaic Idealize.ShloMosaic.ValueIdx
open Cert.SquaredDistance

/-- The column of squared lengths, spread to the result's shape, reads row `i 0` of the first argument. -/
theorem firstRow_idx (i : S8192x8192.Idx) (k : Fin 1024) :
    idx_main_v1 (idx_main_v2 (idx_main_v7 i)) k = ix2 (n0 := 8192) (n1 := 1024) (i 0) k :=
  funext fun a => Fin.ext (by match a with | ⟨0, _⟩ => rfl | ⟨1, _⟩ => rfl)

/-- The row of squared lengths, spread to the result's shape, reads row `i 1` of the second argument. -/
theorem secondRow_idx (i : S8192x8192.Idx) (k : Fin 1024) :
    idx_main_v4 (idx_main_v5 (idx_main_v8 i)) k = ix2 (n0 := 8192) (n1 := 1024) (i 1) k :=
  funext fun a => Fin.ext (by match a with | ⟨0, _⟩ => rfl | ⟨1, _⟩ => rfl)

/-- The contraction's left factor sits in row `i 0`, -/
theorem left_idx (i : S8192x8192.Idx) (k : Fin 1024) : lidx_main_v6 i k = ix2 (n0 := 8192) (n1 := 1024) (i 0) k :=
  funext fun a => Fin.ext (by match a with | ⟨0, _⟩ => rfl | ⟨1, _⟩ => rfl)

/-- and its right factor in row `i 1`. -/
theorem right_idx (i : S8192x8192.Idx) (k : Fin 1024) : ridx_main_v6 i k = ix2 (n0 := 8192) (n1 := 1024) (i 1) k :=
  funext fun a => Fin.ext (by match a with | ⟨0, _⟩ => rfl | ⟨1, _⟩ => rfl)

/-- The reference's last stage is `negLogDist` of the two arguments. -/
theorem result_eq (x0 x1 : (⟨S8192x1024, .f32⟩ : BufTy).Contents (Elt Ideal)) :
    val_main_v16 (F := Ideal) x0 x1 = negLogDist (r := 8192) (s := 8192) (d := 1024) x0 x1 := by
  funext i
  rw [val_main_v16_apply, val_main_v15_apply, val_main_v14_apply, val_main_v12_apply, val_main_v13_apply,
    val_main_cst_2_apply, val_main_v9_apply, val_main_v11_apply, val_main_v7_apply, val_main_v2_apply,
    val_main_v1_apply, val_main_v8_apply, val_main_v5_apply, val_main_v4_apply, val_main_v10_apply,
    val_main_cst_1_apply, val_main_v6_apply, val_main_cst_apply, val_main_cst_0_apply]
  simp only [val_main_v0_apply, val_main_v3_apply, firstRow_idx, secondRow_idx, left_idx, right_idx,
    Ideal.hostNegf_def, Ideal.negf_def, Ideal.hostUnary_log1p_def, Ideal.maximumf_def, Ideal.subf_def,
    Ideal.addf_def, Ideal.mulf_def, Ideal.ofBits_def, Ideal.ofBits_zero_f32, zero_add]
  rfl

end Cert.ReferenceIdeal.Entry

end
-- ==== Proof.lean ====
/-
  Pairwise squared distance, clamped at zero, under −log(1 + ·): the kernel against its reference.

  For x1, x2 of shape [8192, 1024] both programs return the [8192, 8192] array whose entry (p, q) is

      −log(1 + max((|x1_p|² + |x2_q|²) − 2·⟨x1_p, x2_q⟩, 0)),

  with |·|² a row's sum of squares and ⟨·,·⟩ the inner product of two rows (`negLogDist`, Proof/SquaredDistance.lean).

  The kernel tiles the output into 16 × 8 blocks of [512, 1024]; at a block it holds 512 rows of x1 and 1024 rows
  of x2, and each stored entry depends on one row of each (Proof/KernelEntry.lean). Its matrix product takes both
  blocks narrowed to sixteen bits, which on exact values is the identity, and multiplies the first by the transpose
  of the second: entry (p, q) is the inner product of the two rows. Its final negation is written 0 − z, which on
  the extended reals is −z for every z. The blocks are restrictions of one function of the arguments and tile the
  array (Proof/OutputArray.lean). The reference computes the same three sums over whole arrays, its row sums
  started from the zero word (Proof/ReferenceEntry.lean).

  Both programs group the sums alike — the two squared lengths added first, twice the inner product subtracted
  from that — so the two results are the same expression of the same sums: nothing is distributed, cancelled or
  reordered beyond the order of a finite sum, and the inputs' finiteness is not used.

  Reading the kernel at exact values changes none of its operations, so there is nothing to preserve beyond the text itself.
-/
import proofs.«146461_j57543971832354_1_alg».proof.Defs
import proofs.«146461_j57543971832354_1_alg».proof.Proof.Gen.Kernel
import proofs.«146461_j57543971832354_1_alg».proof.Proof.Gen.Kernel.Skeleton
import proofs.«146461_j57543971832354_1_alg».proof.Proof.Gen.Kernel.Launch
import proofs.«146461_j57543971832354_1_alg».proof.Proof.Gen.Kernel.Points
import proofs.«146461_j57543971832354_1_alg».proof.Proof.Gen.Kernel.Frame
import proofs.«146461_j57543971832354_1_alg».proof.Proof.Gen.KernelIdeal
import proofs.«146461_j57543971832354_1_alg».proof.Proof.Gen.KernelIdeal.Skeleton
import proofs.«146461_j57543971832354_1_alg».proof.Proof.Gen.KernelIdeal.Launch
import proofs.«146461_j57543971832354_1_alg».proof.Proof.Gen.KernelIdeal.Points
import proofs.«146461_j57543971832354_1_alg».proof.Proof.Gen.KernelIdeal.Frame
import proofs.«146461_j57543971832354_1_alg».proof.Proof.Gen.ReferenceIdeal
import proofs.«146461_j57543971832354_1_alg».proof.Proof.Gen.KernelIdeal.Value
import proofs.«146461_j57543971832354_1_alg».proof.Proof.Gen.ReferenceIdeal.Run
import proofs.«146461_j57543971832354_1_alg».proof.Proof.Gen.ReferenceIdeal.Read
import proofs.«146461_j57543971832354_1_alg».proof.Proof.Gen.Pre_finite_inputs
import proofs.«146461_j57543971832354_1_alg».proof.Proof.OutputArray
import proofs.«146461_j57543971832354_1_alg».proof.Proof.ReferenceEntry
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the result array at `negLogDist` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Entry.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
